-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S64x4096 : Shape := ⟨2, ![64, 4096]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S32768x4096 .f32) (main_arg1 : FVec F S64x4096 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Kernel.lean ====
abbrev S32768x4096 : Shape := ⟨2, ![32768, 4096]⟩
abbrev S64x4096 : Shape := ⟨2, ![64, 4096]⟩
abbrev S64x32768 : Shape := ⟨2, ![64, 32768]⟩
abbrev S32768x64 : Shape := ⟨2, ![32768, 64]⟩
abbrev S1024x4096 : Shape := ⟨2, ![1024, 4096]⟩
abbrev S64x1024 : Shape := ⟨2, ![64, 1024]⟩
abbrev S1024 : Shape := ⟨1, ![1024]⟩
abbrev S1x1024 : Shape := ⟨2, ![1, 1024]⟩

abbrev nBuf : Space → Nat
  | .hbm => 6
  | .vmem => 7
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64x32768, .f32⟩
  | .hbm, ⟨3, _⟩ => ⟨S64x32768, .f32⟩
  | .hbm, ⟨4, _⟩ => ⟨S32768x64, .f32⟩
  | .hbm, ⟨5, _⟩ => ⟨S32768x64, .f32⟩
  | .local _ .vmem, ⟨0, _⟩ => ⟨S1024x4096, .f32⟩
  | .local _ .vmem, ⟨1, _⟩ => ⟨S1024x4096, .f32⟩
  | .local _ .vmem, ⟨2, _⟩ => ⟨S64x4096, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0_0 : Ref sig .tc := ⟨.hbm, 2, rfl⟩
abbrev main_call0_v0_1 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S64x32768_S32768x64_1_0 : S64x32768.Transposes [1, 0] S32768x64
  inb_S1024x4096_S1024x4096_0_0 : ∀ a, (![0, 0] : Fin 2 → Nat) a + S1024x4096.size a ≤ S1024x4096.size a
  h_S1024x4096 : 0 < S1024x4096.numel
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  reduces_S64x1024_S1024 : S64x1024.Reduces [0] S1024
  shapeCasts_S1024_S1x1024 : S1024.ShapeCasts S1x1024
  broadcasts_S1x1024_S64x1024 : S1x1024.Broadcasts S64x1024
  inb_S64x1024_S64x1024_0_0 : ∀ a, (![0, 0] : Fin 2 → Nat) a + S64x1024.size a ≤ S64x1024.size a
  h_S64x1024 : 0 < S64x1024.numel
  dot_S64x4096_S1024x4096_S64x1024_1_1_0_0_n_n_wf : DotDims.WF S64x4096 S1024x4096 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S32768x4096.size a
  hwx0_0 : ∀ i : grid0.Coords, EltTy.bits .f32 = 32 ∨ (Rect.block (s := S32768x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x32768.size a
  hwx0_2 : ∀ i : grid0.Coords, EltTy.bits .f32 = 32 ∨ (Rect.block (s := S64x32768) S64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x32768.size a
  hwx0_3 : ∀ i : grid0.Coords, EltTy.bits .f32 = 32 ∨ (Rect.block (s := S64x32768) S64x1024.size (cc0_transform_3 i) (hinb0_3 i)).WholeWords (EltTy.packing .f32)

variable [Facts₀]

def dot_S64x4096_S1024x4096_S64x1024_1_1_0_0_n_n : DotDims S64x4096 S1024x4096 S64x1024 where
  lhsContracting := [1]
  rhsContracting := [1]
  lhsNonContracting := [0]
  rhsNonContracting := [0]
  lhsBatch := []
  rhsBatch := []
  wf := dot_S64x4096_S1024x4096_S64x1024_1_1_0_0_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0_0) S64x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0_1) S64x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S64x4096 : Shape := ⟨2, ![64, 4096]⟩
abbrev S4096x64 : Shape := ⟨2, ![4096, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩

abbrev nBuf : Space → Nat
  | .hbm => 21
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S4096x64, .f32⟩
  | .hbm, ⟨3, _⟩ => ⟨S32768x64, .f32⟩
  | .hbm, ⟨4, _⟩ => ⟨S_, .f32⟩
  | .hbm, ⟨5, _⟩ => ⟨S32768x64, .f32⟩
  | .hbm, ⟨6, _⟩ => ⟨S32768x64, .f32⟩
  | .hbm, ⟨7, _⟩ => ⟨S_, .f32⟩
  | .hbm, ⟨8, _⟩ => ⟨S32768, .f32⟩
  | .hbm, ⟨9, _⟩ => ⟨S_, .f32⟩
  | .hbm, ⟨10, _⟩ => ⟨S32768, .f32⟩
  | .hbm, ⟨11, _⟩ => ⟨S32768, .f32⟩
  | .hbm, ⟨12, _⟩ => ⟨S32768x1, .f32⟩
  | .hbm, ⟨13, _⟩ => ⟨S32768x64, .f32⟩
  | .hbm, ⟨14, _⟩ => ⟨S32768x64, .f32⟩
  | .hbm, ⟨15, _⟩ => ⟨S32768x64, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S32768x64, .f32⟩
  | .hbm, ⟨20, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  transposes_S64x4096_S4096x64_1_0 : S64x4096.Transposes [1, 0] S4096x64
  bcast_S_S32768x64 : S_.BroadcastsInDim S32768x64 (![] : Fin 0 → Fin S32768x64.rank)
  reducesTo_S32768x64_S32768_d1 : S32768x64.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  dot_S32768x4096_S4096x64_S32768x64_1_0_0_1_n_n_wf : DotDims.WF S32768x4096 S4096x64 S32768x64 [1] [0] [0] [1] [] []

variable [Facts₀]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf

class Facts : Prop extends Facts₀ where

variable [Facts]
-- ==== Proof.RouterSpec.lean ====
/-
  The router's gating function on the extended reals, index by index: what both programs are proved to compute.

  For a token `t` and an expert `e`, with `x` the hidden states [32768, 4096] and `w` the router weight [64, 4096]:
    logit t e  = ∑ k, w[e, k] · x[t, k]
    rowMax t   = the maximum over the 64 experts of logit t e, folded from −∞
    expd t e   = exp (logit t e − rowMax t)
    denom t    = ∑ e, expd t e
    prob t e   = expd t e / denom t          (the extended reals' quotient with its conventions at 0 and ±∞)
  The token-major arrays `logits`, `probs` [32768, 64] are the results; the expert-major arrays `logitsT`, `probsT`
  [64, 32768] are their transposes, which the kernel writes block by block before the host transposes them back.
-/
import Idealize.ShloMosaic.PureOps.Ideal
import Idealize.ShloMosaic.PureOps.Ideal.Laws
import Idealize.ShloMosaic.Lib.ValueIdx

noncomputable section

namespace Cert.Router

open Idealize.ShloMosaic Idealize.ShloMosaic.ValueIdx

/-- hidden states: tokens × hidden -/
abbrev XS : Shape := ⟨2, ![32768, 4096]⟩
/-- router weight: experts × hidden -/
abbrev WS : Shape := ⟨2, ![64, 4096]⟩
/-- token-major results -/
abbrev TE : Shape := ⟨2, ![32768, 64]⟩
/-- expert-major results -/
abbrev ET : Shape := ⟨2, ![64, 32768]⟩

variable (x : FVec Ideal XS .f32) (w : FVec Ideal WS .f32)

/-- The router logit of token `t` for expert `e`: the inner product of the expert's weight row with the token's row. -/
def logit (t : Fin 32768) (e : Fin 64) : EReal := ∑ k : Fin 4096, w (ix2 e k) * x (ix2 t k)

/-- The largest logit of token `t`, folded from −∞ over the experts. -/
def rowMax (t : Fin 32768) : EReal := (Finset.univ : Finset (Fin 64)).fold max ⊥ (fun e => logit x w t e)

/-- The shifted exponential. -/
def expd (t : Fin 32768) (e : Fin 64) : EReal := Ideal.exp (logit x w t e - rowMax x w t)

/-- The softmax denominator of token `t`. -/
def denom (t : Fin 32768) : EReal := ∑ e : Fin 64, expd x w t e

/-- The routing probability of expert `e` for token `t`. -/
def prob (t : Fin 32768) (e : Fin 64) : EReal := Ideal.div (expd x w t e) (denom x w t)

/-- The two results, token-major. -/
def logits : FVec Ideal TE .f32 := fun i => logit x w (i 0) (i 1)
def probs : FVec Ideal TE .f32 := fun i => prob x w (i 0) (i 1)

/-- The same, expert-major: what the kernel's two output arrays hold. -/
def logitsT : FVec Ideal ET .f32 := fun j => logit x w (j 1) (j 0)
def probsT : FVec Ideal ET .f32 := fun j => prob x w (j 1) (j 0)

/-- The bit pattern of f32's −∞ denotes the bottom of the extended reals. -/
theorem ofBits_neg_inf : Ideal.ofBits .f32 0xFF800000#32 = (⊥ : EReal) := by simp [Ideal.ofBits, Ideal.ieee]

/-- The bit pattern of f32's 1.0 denotes one. -/
theorem ofBits_one : Ideal.ofBits .f32 0x3F800000#32 = (1 : EReal) := by
  simp [Ideal.ofBits, Ideal.ieee, -EReal.coe_mul]; norm_num

/-- A quotient by one is the dividend, at every extended real (no finiteness is needed: 1⁻¹ = 1). -/
theorem div_one (a : EReal) : Ideal.div a 1 = a := by
  have h := Ideal.div_coe (y := 1) one_ne_zero a
  rw [EReal.coe_one] at h
  rw [h]; simp

end Cert.Router

end
-- ==== Proof.RouterPayload.lean ====
/-
  The kernel body's two stored values, read at one entry of the [64, 1024] block (expert `e`, token `r` of the block),
  as functions of the two loaded blocks: `x0` the token block [1024, 4096] and `x1` the weight [64, 4096].

  * the first store is the matrix product into a zero accumulator: entry (e, r) is ∑ k, x1[e, k] · x0[r, k]
    (the bf16 casts of both operands are the identity on the extended reals);
  * the second store is the column softmax of the first: the maximum over the 64 rows of column r is folded from −∞,
    the row sum of the shifted exponentials runs over the same 64 rows, and the [1024] vectors of maxima and of sums are
    re-laid as one row [1, 1024] and broadcast down the 64 rows, so entry (e, r) reads the vector's entry r.
-/
import proofs.«114381_g44117904065238_cont_8to1_c_823_17_alg».proof.Proof.Gen.KernelIdeal.Skeleton
import proofs.«114381_g44117904065238_cont_8to1_c_823_17_alg».proof.Proof.RouterSpec
import Idealize.ShloMosaic.Lib.Pipeline.Value
import Idealize.ShloMosaic.Lib.ValueIdx
import Idealize.ShloMosaic.PureOps.Ideal.Laws

noncomputable section

namespace Cert.Router.Payload

open Cert.KernelIdeal Cert.KernelIdeal.Gen Idealize.ShloMosaic Idealize.ShloMosaic.ValueIdx

/-! ## The matrix product at an entry -/

theorem lhs_axis0 (i : S64x1024.Idx) (q : dot_S64x4096_S1024x4096_S64x1024_1_1_0_0_n_n.contr.Idx) :
    (dot_S64x4096_S1024x4096_S64x1024_1_1_0_0_n_n.lhsIdx i q 0).val = (i 0).val := by
  unfold DotDims.lhsIdx
  rw [dif_neg (show ¬(0 : Fin S64x4096.rank) ∈ dot_S64x4096_S1024x4096_S64x1024_1_1_0_0_n_n.lhsBatch by decide), dif_pos (show (0 : Fin S64x4096.rank) ∈ dot_S64x4096_S1024x4096_S64x1024_1_1_0_0_n_n.lhsNonContracting by decide)]
  rfl
theorem lhs_axis1 (i : S64x1024.Idx) (q : dot_S64x4096_S1024x4096_S64x1024_1_1_0_0_n_n.contr.Idx) :
    (dot_S64x4096_S1024x4096_S64x1024_1_1_0_0_n_n.lhsIdx i q 1).val = (q ⟨0, by decide⟩).val :=
  dot_S64x4096_S1024x4096_S64x1024_1_1_0_0_n_n.lhsIdx_val_of_single rfl i q
theorem rhs_axis0 (i : S64x1024.Idx) (q : dot_S64x4096_S1024x4096_S64x1024_1_1_0_0_n_n.contr.Idx) :
    (dot_S64x4096_S1024x4096_S64x1024_1_1_0_0_n_n.rhsIdx i q 0).val = (i 1).val := by
  unfold DotDims.rhsIdx
  rw [dif_neg (show ¬(0 : Fin S1024x4096.rank) ∈ dot_S64x4096_S1024x4096_S64x1024_1_1_0_0_n_n.rhsBatch by decide), dif_pos (show (0 : Fin S1024x4096.rank) ∈ dot_S64x4096_S1024x4096_S64x1024_1_1_0_0_n_n.rhsNonContracting by decide)]
  rfl
theorem rhs_axis1 (i : S64x1024.Idx) (q : dot_S64x4096_S1024x4096_S64x1024_1_1_0_0_n_n.contr.Idx) :
    (dot_S64x4096_S1024x4096_S64x1024_1_1_0_0_n_n.rhsIdx i q 1).val = (q ⟨0, by decide⟩).val :=
  dot_S64x4096_S1024x4096_S64x1024_1_1_0_0_n_n.rhsIdx_val_of_single rfl i q

/-- Entry (e, r) of the product of the weight rows with the token rows: the inner product over the hidden axis. -/
def dotAt (x0 : FVec Ideal S1024x4096 .f32) (x1 : FVec Ideal S64x4096 .f32) (e : Fin 64) (r : Fin 1024) : EReal :=
  ∑ k : Fin 4096, x1 (ix2 e k) * x0 (ix2 r k)

/-- The first stored value at (e, r). -/
theorem pay1_apply (x0 : FVec Ideal S1024x4096 .f32) (x1 : FVec Ideal S64x4096 .f32) (e : Fin 64) (r : Fin 1024) :
    k0_pay1 (F := Ideal) x0 x1 (ix2 e r) = dotAt x0 x1 e r := by
  unfold k0_pay1 dotAt
  simp only [matmul]
  rw [Ideal.matmul_constant_zero_apply, ← Equiv.sum_comp (contrEquiv1 dot_S64x4096_S1024x4096_S64x1024_1_1_0_0_n_n 4096 rfl rfl).symm]
  refine Finset.sum_congr rfl fun k _ => ?_
  have hk := contrEquiv1_symm_val dot_S64x4096_S1024x4096_S64x1024_1_1_0_0_n_n 4096 rfl rfl k
  have el : dot_S64x4096_S1024x4096_S64x1024_1_1_0_0_n_n.lhsIdx (ix2 e r) ((contrEquiv1 dot_S64x4096_S1024x4096_S64x1024_1_1_0_0_n_n 4096 rfl rfl).symm k) = ix2 e k := funext fun a => Fin.ext (by
    match a with
    | ⟨0, _⟩ => exact lhs_axis0 _ _
    | ⟨1, _⟩ => exact (lhs_axis1 _ _).trans hk)
  have er : dot_S64x4096_S1024x4096_S64x1024_1_1_0_0_n_n.rhsIdx (ix2 e r) ((contrEquiv1 dot_S64x4096_S1024x4096_S64x1024_1_1_0_0_n_n 4096 rfl rfl).symm k) = ix2 r k := funext fun a => Fin.ext (by
    match a with
    | ⟨0, _⟩ => exact rhs_axis0 _ _
    | ⟨1, _⟩ => exact (rhs_axis1 _ _).trans hk)
  rw [el, er]
  rfl

/-! ## A [1024] vector re-laid as a row and broadcast down the 64 rows -/

/-- Entry (e, r) of the broadcast reads entry r of the vector. -/
theorem rowBroadcast_apply (u : FVec Ideal S1024 .f32) (hc : S1024.ShapeCasts S1x1024) (hb : S1x1024.Broadcasts S64x1024)
    (e : Fin 64) (r : Fin 1024) :
    broadcastTo S64x1024 (shapeCast S1x1024 u hc) hb (ix2 e r) = u (ix1 r) := by
  refine (broadcastTo_apply (shapeCast S1x1024 u hc) hb (ix2 e r) (ix2 (0 : Fin 1) r) (fun a => ?_)).trans ?_
  · match a with
    | ⟨0, _⟩ => show 0 = if (1 : Nat) = 1 then 0 else _; rw [if_pos rfl]
    | ⟨1, _⟩ => show r.val = if (1024 : Nat) = 1 then 0 else r.val; rw [if_neg (by decide)]
  · refine shapeCast_apply u hc (ix2 (0 : Fin 1) r) (ix1 r) ?_
    rw [Shape.rowMajor_val_one, Shape.rowMajor_val_two]
    show r.val = 0 * 1024 + r.val
    omega

/-- The reduced index r with row k put back is (k, r). -/
theorem lift_row (h : S64x1024.Reduces [0] S1024) (r : Fin 1024) (k : Fin (S64x1024.size 0)) :
    h.lift (ix1 r) k = ix2 (⟨k.val, k.isLt⟩ : Fin 64) r := by
  funext c; apply Fin.ext
  fin_cases c <;> rfl

/-- The maximum over the 64 rows of column r, folded from −∞. -/
theorem colMax_apply (P : FVec Ideal S64x1024 .f32) (h : S64x1024.Reduces [0] S1024) (hφ : FKind.Formats .f32)
    (hacc : (0xFF800000#32 : BitVec 32) = FKind.maximumf.neutral .f32 hφ) (r : Fin 1024) :
    multiReduction .maximumf [0] S1024 P 0xFF800000#32 h hφ hacc (ix1 r)
      = (Finset.univ : Finset (Fin 64)).fold max ⊥ (fun e => P (ix2 e r)) := by
  refine (Ideal.multiReduction_maximumf_single P 0xFF800000#32 h hφ hacc (ix1 r)).trans ?_
  rw [Ideal.ofBits_def, ofBits_neg_inf]
  have hf : (P ∘ h.lift (ix1 r)) = fun e : Fin 64 => P (ix2 e r) := funext fun k => congrArg P (lift_row h r k)
  exact congrArg (fun f => Finset.fold max (⊥ : EReal) f (Finset.univ : Finset (Fin 64))) hf

/-- The sum over the 64 rows of column r. -/
theorem colSum_apply (Q : FVec Ideal S64x1024 .f32) (h : S64x1024.Reduces [0] S1024) (hφ : FKind.Formats .f32)
    (hacc : (0x00000000#32 : BitVec 32) = FKind.add.neutral .f32 hφ) (r : Fin 1024) :
    multiReduction .add [0] S1024 Q 0x00000000#32 h hφ hacc (ix1 r) = ∑ e : Fin 64, Q (ix2 e r) := by
  refine (Ideal.multiReduction_add_single Q 0x00000000#32 h hφ hacc (ix1 r)).trans ?_
  exact Finset.sum_congr rfl fun k _ => congrArg Q (lift_row h r k)

/-! ## The column softmax at an entry -/

/-- Column r's maximum of a block. -/
def colMax (P : FVec Ideal S64x1024 .f32) (r : Fin 1024) : EReal :=
  (Finset.univ : Finset (Fin 64)).fold max ⊥ (fun e => P (ix2 e r))

/-- The column softmax of a block `P`, as the body spells it, at entry (e, r). -/
theorem softmaxCols_apply (P : FVec Ideal S64x1024 .f32) (h : S64x1024.Reduces [0] S1024) (hc : S1024.ShapeCasts S1x1024)
    (hb : S1x1024.Broadcasts S64x1024) (hφ : FKind.Formats .f32)
    (hmax : (0xFF800000#32 : BitVec 32) = FKind.maximumf.neutral .f32 hφ)
    (hadd : (0x00000000#32 : BitVec 32) = FKind.add.neutral .f32 hφ) (e : Fin 64) (r : Fin 1024) :
    divf (exp (subf P (broadcastTo S64x1024 (shapeCast S1x1024 (multiReduction .maximumf [0] S1024 P 0xFF800000#32 h hφ hmax) hc) hb)))
        (broadcastTo S64x1024 (shapeCast S1x1024 (multiReduction .add [0] S1024
          (exp (subf P (broadcastTo S64x1024 (shapeCast S1x1024 (multiReduction .maximumf [0] S1024 P 0xFF800000#32 h hφ hmax) hc) hb)))
          0x00000000#32 h hφ hadd) hc) hb) (ix2 e r)
      = Ideal.div (Ideal.exp (P (ix2 e r) - colMax P r)) (∑ e' : Fin 64, Ideal.exp (P (ix2 e' r) - colMax P r)) := by
  have hE : ∀ e' : Fin 64, (exp (subf P (broadcastTo S64x1024 (shapeCast S1x1024 (multiReduction .maximumf [0] S1024 P 0xFF800000#32 h hφ hmax) hc) hb)) : FVec Ideal S64x1024 .f32) (ix2 e' r)
      = Ideal.exp (P (ix2 e' r) - colMax P r) := fun e' => by
    show Ideal.exp (P (ix2 e' r) - broadcastTo S64x1024 (shapeCast S1x1024 (multiReduction .maximumf [0] S1024 P 0xFF800000#32 h hφ hmax) hc) hb (ix2 e' r)) = _
    rw [rowBroadcast_apply, colMax_apply]
    rfl
  show Ideal.div _ _ = _
  rw [hE e, rowBroadcast_apply, colSum_apply]
  exact congrArg (Ideal.div _) (Finset.sum_congr rfl fun e' _ => hE e')

/-- The second stored value at (e, r): the column softmax of the product. -/
theorem pay2_apply (x0 : FVec Ideal S1024x4096 .f32) (x1 : FVec Ideal S64x4096 .f32) (e : Fin 64) (r : Fin 1024) :
    k0_pay2 (F := Ideal) x0 x1 (ix2 e r)
      = Ideal.div (Ideal.exp (k0_pay1 (F := Ideal) x0 x1 (ix2 e r) - colMax (k0_pay1 (F := Ideal) x0 x1) r))
          (∑ e' : Fin 64, Ideal.exp (k0_pay1 (F := Ideal) x0 x1 (ix2 e' r) - colMax (k0_pay1 (F := Ideal) x0 x1) r)) := by
  unfold k0_pay2
  exact softmaxCols_apply (k0_pay1 (F := Ideal) x0 x1) _ _ _ _ _ _ e r

end Cert.Router.Payload

end
-- ==== Proof.RouterKernelValue.lean ====
/-
  The idealized kernel's two output arrays after its run, as whole-array functions of its two arguments.

  The grid has 32 points. At point t the body sees rows 1024·t … 1024·t + 1023 of the hidden states and the whole weight,
  and writes column block t — columns 1024·t … 1024·t + 1023 — of each expert-major [64, 32768] array: the logits
  (`logitsT`) and the routing probabilities (`probsT`). An entry (e, r) of block t is entry (e, 1024·t + r) of the array,
  and the softmax of a token runs over the 64 rows of its own column, which lie in one block. The 32 column blocks tile
  each array, so after the last point the arrays are `logitsT` and `probsT` of the arguments. The host then transposes
  both, which gives the token-major `logits` and `probs`.
-/
import proofs.«114381_g44117904065238_cont_8to1_c_823_17_alg».proof.Proof.Gen.KernelIdeal.Frame
import proofs.«114381_g44117904065238_cont_8to1_c_823_17_alg».proof.Proof.RouterSpec
import proofs.«114381_g44117904065238_cont_8to1_c_823_17_alg».proof.Proof.RouterPayload
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.Router.KernelValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Router Cert.Router.Payload

variable (m : (ℓ : Loc nD τ sig) → Buf (Elt Ideal) ℓ) (ρ : Dev nD → PrngReg)

/-- The hidden states and the router weight as the kernel is launched with them. -/
abbrev xarr (c : Dev nD) : FVec Ideal S32768x4096 .f32 := m ((c : Thread nD τ).loc main_arg0)
abbrev warr (c : Dev nD) : FVec Ideal S64x4096 .f32 := m ((c : Thread nD τ).loc main_arg1)

/-- The two input blocks at grid point t. -/
abbrev xblk (c : Dev nD) (t : Fin cfg0.N) : FVec Ideal S1024x4096 .f32 := iblk m c 0 t
abbrev wblk (c : Dev nD) (t : Fin cfg0.N) : FVec Ideal S64x4096 .f32 := iblk m c 1 t

theorem hz : (![0, 0] : Fin 2 → Nat) = fun _ => 0 := funext fun a => by fin_cases a <;> rfl

theorem point_lt (t : Fin cfg0.N) : t.val < 32 := lt_of_lt_of_eq t.isLt N_0

/-- The block indices of the four windows at point t: the token block moves down the rows with t, the weight stays,
    and both outputs move along the columns with t. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- Row r of the token block at point t is row 1024·t + r of the hidden states. -/
theorem xblk_apply (c : Dev nD) (t : Fin cfg0.N) (r : Fin 1024) (k : Fin 4096) (T : Fin 32768)
    (hT : T.val = t.val * 1024 + r.val) : xblk m c t (ix2 r k) = xarr m c (ix2 T k) := by
  obtain ⟨i0, i1, -⟩ := idx_facts t
  show iblk m c 0 t (ix2 r k) = _
  unfold iblk
  rw [View.read_apply]
  show V m c main_arg0 _ = V m c main_arg0 _
  congr 1
  funext a
  apply Fin.ext
  match a with
  | ⟨0, _⟩ => show win0_0.index t (0 : Fin 2) * 1024 + 1 * r.val = T.val; rw [i0, hT]; omega
  | ⟨1, _⟩ => show win0_0.index t (1 : Fin 2) * 4096 + 1 * k.val = k.val; rw [i1]; omega

/-- The weight block at every point is the whole weight. -/
theorem wblk_apply (c : Dev nD) (t : Fin cfg0.N) (e : Fin 64) (k : Fin 4096) : wblk m c t (ix2 e k) = warr m c (ix2 e k) := by
  obtain ⟨-, -, i2, i3, -⟩ := idx_facts t
  show iblk m c 1 t (ix2 e k) = _
  unfold iblk
  rw [View.read_apply]
  show V m c main_arg1 _ = V m c main_arg1 _
  congr 1
  funext a
  apply Fin.ext
  match a with
  | ⟨0, _⟩ => show win0_1.index t (0 : Fin 2) * 64 + 1 * e.val = e.val; rw [i2]; omega
  | ⟨1, _⟩ => show win0_1.index t (1 : Fin 2) * 4096 + 1 * k.val = k.val; rw [i3]; omega

/-- Entry (e, r) of the first store at point t is the logit of token 1024·t + r for expert e. -/
theorem block_logit (c : Dev nD) (t : Fin cfg0.N) (e : Fin 64) (r : Fin 1024) (T : Fin 32768)
    (hT : T.val = t.val * 1024 + r.val) :
    k0_pay1 (F := Ideal) (xblk m c t) (wblk m c t) (ix2 e r) = logit (xarr m c) (warr m c) T e := by
  rw [pay1_apply]
  unfold dotAt logit
  exact Finset.sum_congr rfl fun k _ => by rw [xblk_apply m c t r k T hT, wblk_apply m c t e k]

/-- Entry (e, r) of the second store at point t is the routing probability of expert e for token 1024·t + r: the column's
    64 rows are the token's 64 experts. -/
theorem block_prob (c : Dev nD) (t : Fin cfg0.N) (e : Fin 64) (r : Fin 1024) (T : Fin 32768)
    (hT : T.val = t.val * 1024 + r.val) :
    k0_pay2 (F := Ideal) (xblk m c t) (wblk m c t) (ix2 e r) = prob (xarr m c) (warr m c) T e := by
  rw [pay2_apply]
  have hP : ∀ e' : Fin 64, k0_pay1 (F := Ideal) (xblk m c t) (wblk m c t) (ix2 e' r) = logit (xarr m c) (warr m c) T e' :=
    fun e' => block_logit m c t e' r T hT
  have hM : colMax (k0_pay1 (F := Ideal) (xblk m c t) (wblk m c t)) r = rowMax (xarr m c) (warr m c) T := by
    unfold colMax rowMax
    exact congrArg (fun f => Finset.fold max (⊥ : EReal) f (Finset.univ : Finset (Fin 64))) (funext hP)
  unfold prob denom expd
  rw [hP e, hM]
  exact congrArg (Ideal.div _) (Finset.sum_congr rfl fun e' _ => by rw [hP e'])

/-- Where an entry of an output block at point t sits in the array: same row, column 1024·t + its column. -/
theorem emb2 (t : Fin cfg0.N) (e : Fin 64) (r : Fin 1024) (T : Fin 32768) (hT : T.val = t.val * 1024 + r.val) :
    ((cfg0.win 2).blk t).view.emb (ix2 e r) = ix2 e T := by
  obtain ⟨-, -, -, -, i4, i5, -⟩ := idx_facts t
  funext a
  apply Fin.ext
  match a with
  | ⟨0, _⟩ => show win0_2.index t (0 : Fin 2) * 64 + 1 * e.val = e.val; rw [i4]; omega
  | ⟨1, _⟩ => show win0_2.index t (1 : Fin 2) * 1024 + 1 * r.val = T.val; rw [i5, hT]; omega
theorem emb3 (t : Fin cfg0.N) (e : Fin 64) (r : Fin 1024) (T : Fin 32768) (hT : T.val = t.val * 1024 + r.val) :
    ((cfg0.win 3).blk t).view.emb (ix2 e r) = ix2 e T := by
  obtain ⟨-, -, -, -, -, -, i6, i7⟩ := idx_facts t
  funext a
  apply Fin.ext
  match a with
  | ⟨0, _⟩ => show win0_3.index t (0 : Fin 2) * 64 + 1 * e.val = e.val; rw [i6]; omega
  | ⟨1, _⟩ => show win0_3.index t (1 : Fin 2) * 1024 + 1 * r.val = T.val; rw [i7, hT]; omega

/-- What point t writes back into the logits array is block t of `logitsT`. -/
theorem flushed2_eq (c : Dev nD) (t : Fin cfg0.N) :
    (dats m 0 c).flushed 2 t = ((cfg0.win 2).blk t).view.read (Elt Ideal) (logitsT (xarr m c) (warr m c)) := by
  show (cfg0.win 2).cut (grid0.coords t) ((dats m 0 c).after 2 t) = _
  rw [after0_2]
  unfold out0_2
  rw [View.canon_unit_zero hz]
  simp only [View.ld_unit_zero (S := S1024x4096) hz, View.ld_unit_zero (S := S64x4096) hz]
  funext j
  obtain ⟨e, r, rfl⟩ : ∃ (e : Fin 64) (r : Fin 1024), j = ix2 e r := ⟨j 0, j 1, eq_ix2 j⟩
  have ht := point_lt t
  show k0_pay1 (F := Ideal) (xblk m c t) (wblk m c t) (ix2 e r) = logitsT (xarr m c) (warr m c) (((cfg0.win 2).blk t).view.emb (ix2 e r))
  rw [emb2 t e r ⟨t.val * 1024 + r.val, by have := r.isLt; omega⟩ rfl]
  exact block_logit m c t e r _ rfl

/-- What point t writes back into the probabilities array is block t of `probsT`. -/
theorem flushed3_eq (c : Dev nD) (t : Fin cfg0.N) :
    (dats m 0 c).flushed 3 t = ((cfg0.win 3).blk t).view.read (Elt Ideal) (probsT (xarr m c) (warr m c)) := by
  show (cfg0.win 3).cut (grid0.coords t) ((dats m 0 c).after 3 t) = _
  rw [after0_3]
  unfold out0_3
  rw [View.canon_unit_zero hz]
  simp only [View.ld_unit_zero (S := S1024x4096) hz, View.ld_unit_zero (S := S64x4096) hz]
  funext j
  obtain ⟨e, r, rfl⟩ : ∃ (e : Fin 64) (r : Fin 1024), j = ix2 e r := ⟨j 0, j 1, eq_ix2 j⟩
  have ht := point_lt t
  show k0_pay2 (F := Ideal) (xblk m c t) (wblk m c t) (ix2 e r) = probsT (xarr m c) (warr m c) (((cfg0.win 3).blk t).view.emb (ix2 e r))
  rw [emb3 t e r ⟨t.val * 1024 + r.val, by have := r.isLt; omega⟩ rfl]
  exact block_prob m c t e r _ rfl

/-- An index of an output array is in point t's block iff each coordinate is in the block's range on its axis. -/
theorem mem_blk2 (t : Fin cfg0.N) (i : S64x32768.Idx) :
    i ∈ ((cfg0.win 2).blk t).view.set ↔ ∀ a : Fin 2, win0_2.index t a * S64x1024.size a ≤ (i a).val ∧ (i a).val < win0_2.index t a * S64x1024.size a + S64x1024.size a := by
  show i ∈ ((View.whole main_call0_v0_0).slice (win0_2.rect t)).set ↔ _
  rw [View.set_slice_whole, Rect.mem_set_unit]
  exact Iff.rfl
theorem mem_blk3 (t : Fin cfg0.N) (i : S64x32768.Idx) :
    i ∈ ((cfg0.win 3).blk t).view.set ↔ ∀ a : Fin 2, win0_3.index t a * S64x1024.size a ≤ (i a).val ∧ (i a).val < win0_3.index t a * S64x1024.size a + S64x1024.size a := by
  show i ∈ ((View.whole main_call0_v0_1).slice (win0_3.rect t)).set ↔ _
  rw [View.set_slice_whole, Rect.mem_set_unit]
  exact Iff.rfl

/-- Column j of an output array lies in the block of point j / 1024. -/
theorem cover2 (i : S64x32768.Idx) : ∃ t : Fin cfg0.N, (cfg0.win 2).flush t = true ∧ i ∈ ((cfg0.win 2).blk t).view.set := by
  have hi0 : (i 0).val < 64 := (i 0).isLt
  have hi1 : (i 1).val < 32768 := (i 1).isLt
  have hlt : (i 1).val / 1024 < cfg0.N := by rw [show cfg0.N = 32 from N_0]; omega
  obtain ⟨-, -, -, -, i4, i5, -⟩ := idx_facts ⟨(i 1).val / 1024, hlt⟩
  refine ⟨⟨(i 1).val / 1024, hlt⟩, flush0_2 _, ?_⟩
  rw [mem_blk2]
  intro a
  match a with
  | ⟨0, _⟩ => show win0_2.index ⟨(i 1).val / 1024, hlt⟩ (0 : Fin 2) * 64 ≤ (i 0).val ∧ (i 0).val < win0_2.index ⟨(i 1).val / 1024, hlt⟩ (0 : Fin 2) * 64 + 64
              rw [i4]; omega
  | ⟨1, _⟩ => show win0_2.index ⟨(i 1).val / 1024, hlt⟩ (1 : Fin 2) * 1024 ≤ (i 1).val ∧ (i 1).val < win0_2.index ⟨(i 1).val / 1024, hlt⟩ (1 : Fin 2) * 1024 + 1024
              rw [i5]; show (i 1).val / 1024 * 1024 ≤ (i 1).val ∧ (i 1).val < (i 1).val / 1024 * 1024 + 1024; omega
theorem cover3 (i : S64x32768.Idx) : ∃ t : Fin cfg0.N, (cfg0.win 3).flush t = true ∧ i ∈ ((cfg0.win 3).blk t).view.set := by
  have hi0 : (i 0).val < 64 := (i 0).isLt
  have hi1 : (i 1).val < 32768 := (i 1).isLt
  have hlt : (i 1).val / 1024 < cfg0.N := by rw [show cfg0.N = 32 from N_0]; omega
  obtain ⟨-, -, -, -, -, -, i6, i7⟩ := idx_facts ⟨(i 1).val / 1024, hlt⟩
  refine ⟨⟨(i 1).val / 1024, hlt⟩, flush0_3 _, ?_⟩
  rw [mem_blk3]
  intro a
  match a with
  | ⟨0, _⟩ => show win0_3.index ⟨(i 1).val / 1024, hlt⟩ (0 : Fin 2) * 64 ≤ (i 0).val ∧ (i 0).val < win0_3.index ⟨(i 1).val / 1024, hlt⟩ (0 : Fin 2) * 64 + 64
              rw [i6]; omega
  | ⟨1, _⟩ => show win0_3.index ⟨(i 1).val / 1024, hlt⟩ (1 : Fin 2) * 1024 ≤ (i 1).val ∧ (i 1).val < win0_3.index ⟨(i 1).val / 1024, hlt⟩ (1 : Fin 2) * 1024 + 1024
              rw [i7]; show (i 1).val / 1024 * 1024 ≤ (i 1).val ∧ (i 1).val < (i 1).val / 1024 * 1024 + 1024; omega

/-- The two arrays after the last point. -/
theorem final2 (c : Dev nD) : (dats m 0 c).arrAt 2 cfg0.N = logitsT (xarr m c) (warr m c) :=
  (dats m 0 c).arrAt_eq_of_cover 2 (logitsT (xarr m c) (warr m c)) (fun t _ => flushed2_eq m c t) cover2
theorem final3 (c : Dev nD) : (dats m 0 c).arrAt 3 cfg0.N = probsT (xarr m c) (warr m c) :=
  (dats m 0 c).arrAt_eq_of_cover 3 (probsT (xarr m c) (warr m c)) (fun t _ => flushed3_eq m c t) cover3

/-- The transpose of an expert-major array, read at (t, e), is the array at (e, t). -/
theorem transpose_ET (y : FVec Ideal S64x32768 .f32) (i : S32768x64.Idx) :
    transpose S32768x64 [1, 0] y transposes_S64x32768_S32768x64_1_0 i = y (ix2 (i 1) (i 0)) :=
  transpose_apply [1, 0] y transposes_S64x32768_S32768x64_1_0 i (ix2 (i 1) (i 0)) (fun b => match b with
    | ⟨0, _⟩ => rfl
    | ⟨1, _⟩ => rfl)

theorem transpose_logitsT (x : FVec Ideal S32768x4096 .f32) (w : FVec Ideal S64x4096 .f32) :
    transpose S32768x64 [1, 0] (logitsT x w) transposes_S64x32768_S32768x64_1_0 = logits x w :=
  funext fun i => (transpose_ET _ i).trans rfl
theorem transpose_probsT (x : FVec Ideal S32768x4096 .f32) (w : FVec Ideal S64x4096 .f32) :
    transpose S32768x64 [1, 0] (probsT x w) transposes_S64x32768_S32768x64_1_0 = probs x w :=
  funext fun i => (transpose_ET _ i).trans rfl

/-- The first result after the host's transpose: the logits array, transposed back to token-major. -/
theorem tail_logits (c : Dev nD) :
    Pipeline.afterTail₀ cfgs (dats m) 0 (V0 m) [hostOps1] c main_v0_0 = logits (xarr m c) (warr m c) := by
  unfold Pipeline.afterTail₀
  show StableHlo.after hostOps1 _ (Proc.devRef .tc main_v0_0) = _
  after_results
  show transpose S32768x64 [1, 0] (Pipeline.withArrays spec0 c (V0 m c) (fun w => (dats m 0 c).arrAt w cfg0.N) (Proc.devRef .tc (Pipeline.arrRef spec0 2))) transposes_S64x32768_S32768x64_1_0 = _
  rw [Pipeline.withArrays_arr spec0 launch0.win.arr_inj c _ _ 2, final2, transpose_logitsT]

/-- The second result after the host's transpose: the probabilities array, transposed back to token-major. -/
theorem tail_probs (c : Dev nD) :
    Pipeline.afterTail₀ cfgs (dats m) 0 (V0 m) [hostOps1] c main_v0_1 = probs (xarr m c) (warr m c) := by
  unfold Pipeline.afterTail₀
  show StableHlo.after hostOps1 _ (Proc.devRef .tc main_v0_1) = _
  after_results
  show transpose S32768x64 [1, 0] (Pipeline.withArrays spec0 c (V0 m c) (fun w => (dats m 0 c).arrAt w cfg0.N) (Proc.devRef .tc (Pipeline.arrRef spec0 3))) transposes_S64x32768_S32768x64_1_0 = _
  rw [Pipeline.withArrays_arr spec0 launch0.win.arr_inj c _ _ 3, final3, transpose_probsT]

/-- The two results are buffers the pipeline does not stage: the run's post states them through the host's tail. -/
theorem mem_v0_0 : main_v0_0 ∈ Pipeline.restRefs sig spec0 := Pipeline.mem_restRefs_of main_v0_0 rfl (by decide)
theorem mem_v0_1 : main_v0_1 ∈ Pipeline.restRefs sig spec0 := Pipeline.mem_restRefs_of main_v0_1 rfl (by decide)

/-- The idealized kernel's run, read: every weakly fair execution terminates with the two results at `logits` and `probs`
    of the arguments, the arguments unchanged. -/
theorem run : θ_run defs (onTc (τ := τ) (main (F := Ideal))) ⟨m, fun _ => 0, ρ⟩ fun r => ∀ c : Dev nD,
      r.2.mem ((c.tc : Thread nD τ).loc main_v0_0) = logits (xarr m c) (warr m c)
      ∧ r.2.mem ((c.tc : Thread nD τ).loc main_v0_1) = probs (xarr m c) (warr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v0_0 mem_v0_0).trans (tail_logits m c),
      ((h c).2 main_v0_1 mem_v0_1).trans (tail_probs m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Router.KernelValue

end
-- ==== Proof.RouterReference.lean ====
/-
  The reference's two results are the router's gating function: the host program, one operation at a time, read at an
  entry (t, e) of its [32768, 64] results.

    * the product of the hidden states with the transposed weight at (t, e) is ∑ k, x[t, k] · w[e, k]; the factors commute;
    * the quotient by the temperature 1.0 is the dividend;
    * the reduce with a maximum body over the expert axis is the fold of max from −∞, and the maximum with the −∞
      splat that follows it changes nothing;
    * the two broadcasts [32768] → [32768, 1] → [32768, 64] read entry t of the vector at (t, e);
    * the reduce with an add body over the expert axis is 0 plus the sum over the 64 experts.
-/
import proofs.«114381_g44117904065238_cont_8to1_c_823_17_alg».proof.Proof.Gen.ReferenceIdeal.Read
import proofs.«114381_g44117904065238_cont_8to1_c_823_17_alg».proof.Proof.RouterSpec
import Idealize.ShloMosaic.Lib.Pipeline.Value
import Idealize.ShloMosaic.Lib.ValueIdx
import Idealize.ShloMosaic.PureOps.Ideal.Laws

noncomputable section

namespace Cert.Router.Reference

open Cert.ReferenceIdeal Cert.ReferenceIdeal.Gen Cert.ReferenceIdeal.Read
open Idealize.ShloMosaic Idealize.ShloMosaic.ValueIdx
open Cert.Router

variable (x0 : FVec Ideal S32768x4096 .f32) (x1 : FVec Ideal S64x4096 .f32)

/-- The product at (t, e) is the logit. -/
theorem v1_apply (t : Fin 32768) (e : Fin 64) : val_main_v1 (F := Ideal) x0 x1 (ix2 t e) = logit x0 x1 t e := by
  rw [val_main_v1_apply]
  unfold logit
  refine Finset.sum_congr rfl fun k _ => ?_
  rw [val_main_v0_apply, mul_comm]
  have e1 : lidx_main_v1 (ix2 t e) k = ix2 t k := funext fun a => Fin.ext (by match a with | ⟨0, _⟩ => rfl | ⟨1, _⟩ => rfl)
  have e2 : idx_main_v0 (ridx_main_v1 (ix2 t e) k) = ix2 e k := funext fun a => Fin.ext (by match a with | ⟨0, _⟩ => rfl | ⟨1, _⟩ => rfl)
  rw [e1, e2]

/-- The first result at (t, e): the logit over the temperature 1.0. -/
theorem v3_apply (t : Fin 32768) (e : Fin 64) : val_main_v3 (F := Ideal) x0 x1 (ix2 t e) = logit x0 x1 t e := by
  rw [val_main_v3_apply, v1_apply, val_main_v2_apply, val_main_cst_apply]
  simp only [Ideal.hostDivf_def, Ideal.ofBits_def, ofBits_one, div_one]

/-- The reduced index t with expert k put back is (t, k). -/
theorem lift_expert (h : S32768x64.Reduces [1] S32768) (t : Fin 32768) (k : Fin (S32768x64.size 1)) :
    h.lift (ix1 t) k = ix2 t (⟨k.val, k.isLt⟩ : Fin 64) := by
  funext c; apply Fin.ext
  fin_cases c <;> rfl

/-- The host's reduce with a maximum body over the expert axis, from −∞, at token t. -/
theorem hostRowMax_apply (y : FVec Ideal S32768x64 .f32) (init : FVec Ideal S_ .f32) (h' : S32768x64.ReducesTo [1] S32768)
    (hu : 0 < S_.numel) (hinit : init (Shape.Idx.first hu) = (⊥ : EReal)) (t : Fin 32768) :
    Host.reduce FloatOps.maximumf y init h' hu (ix1 t)
      = (Finset.univ : Finset (Fin 64)).fold max ⊥ (fun e => y (ix2 t e)) := by
  have h : S32768x64.Reduces [1] S32768 := by decide
  refine (Host.reduce_eq_fold_single FloatOps.maximumf y init h' h hu (ix1 t)).trans ?_
  rw [hinit]
  have hf : (y ∘ h.lift (ix1 t)) = fun e : Fin 64 => y (ix2 t e) := funext fun k => congrArg y (lift_expert h t k)
  exact congrArg (fun f => Finset.fold max (⊥ : EReal) f (Finset.univ : Finset (Fin 64))) hf

/-- The row maximum at token t. -/
theorem v4_apply (t : Fin 32768) : val_main_v4 (F := Ideal) x0 x1 (ix1 t) = rowMax x0 x1 t := by
  unfold val_main_v4 rowMax
  refine (hostRowMax_apply (val_main_v3 (F := Ideal) x0 x1) (val_main_cst_0 (F := Ideal)) _ _ ?_ t).trans ?_
  · rw [val_main_cst_0_apply, Ideal.ofBits_def, ofBits_neg_inf]
  · exact congrArg (fun f => Finset.fold max (⊥ : EReal) f (Finset.univ : Finset (Fin 64))) (funext fun e => v3_apply x0 x1 t e)

/-- The maximum with the −∞ splat changes nothing. -/
theorem v6_apply (t : Fin 32768) : val_main_v6 (F := Ideal) x0 x1 (ix1 t) = rowMax x0 x1 t := by
  rw [val_main_v6_apply, val_main_v5_apply, val_main_cst_1_apply, v4_apply]
  simp only [Ideal.maximumf_def, Ideal.ofBits_def, ofBits_neg_inf]
  exact max_eq_right bot_le

/-- Broadcast back over the experts, the row maximum reads at (t, e) as token t's. -/
theorem v8_apply (t : Fin 32768) (e : Fin 64) : val_main_v8 (F := Ideal) x0 x1 (ix2 t e) = rowMax x0 x1 t := by
  rw [val_main_v8_apply, val_main_v7_apply]
  have e1 : idx_main_v7 (idx_main_v8 (ix2 t e)) = ix1 t := funext fun a => Fin.ext (by match a with | ⟨0, _⟩ => rfl)
  rw [e1, v6_apply]

/-- The shifted exponential at (t, e). -/
theorem v10_apply (t : Fin 32768) (e : Fin 64) : val_main_v10 (F := Ideal) x0 x1 (ix2 t e) = expd x0 x1 t e := by
  rw [val_main_v10_apply, val_main_v9_apply, v3_apply, v8_apply]
  simp only [Ideal.hostUnary_exp_def, Ideal.subf_def]
  rfl

/-- The softmax denominator at token t. -/
theorem v11_apply (t : Fin 32768) : val_main_v11 (F := Ideal) x0 x1 (ix1 t) = denom x0 x1 t := by
  rw [val_main_v11_apply, val_main_cst_2_apply]
  unfold denom
  simp only [Ideal.ofBits_def, Ideal.ofBits_zero_f32, zero_add]
  refine Finset.sum_congr rfl fun k _ => ?_
  have e1 : idx_main_v11 (ix1 t) k = ix2 t k := funext fun a => Fin.ext (by match a with | ⟨0, _⟩ => rfl | ⟨1, _⟩ => rfl)
  rw [e1, v10_apply]

/-- Broadcast back over the experts. -/
theorem v13_apply (t : Fin 32768) (e : Fin 64) : val_main_v13 (F := Ideal) x0 x1 (ix2 t e) = denom x0 x1 t := by
  rw [val_main_v13_apply, val_main_v12_apply]
  have e1 : idx_main_v12 (idx_main_v13 (ix2 t e)) = ix1 t := funext fun a => Fin.ext (by match a with | ⟨0, _⟩ => rfl)
  rw [e1, v11_apply]

/-- The second result at (t, e): the routing probability. -/
theorem v14_apply (t : Fin 32768) (e : Fin 64) : val_main_v14 (F := Ideal) x0 x1 (ix2 t e) = prob x0 x1 t e := by
  rw [val_main_v14_apply, v10_apply, v13_apply]
  simp only [Ideal.hostDivf_def]
  rfl

/-- The reference's first result is `logits`. -/
theorem logits_eq : val_main_v3 (F := Ideal) x0 x1 = logits x0 x1 := by
  funext i
  obtain ⟨t, e, rfl⟩ : ∃ (t : Fin 32768) (e : Fin 64), i = ix2 t e := ⟨i 0, i 1, eq_ix2 i⟩
  exact v3_apply x0 x1 t e

/-- The reference's second result is `probs`. -/
theorem probs_eq : val_main_v14 (F := Ideal) x0 x1 = probs x0 x1 := by
  funext i
  obtain ⟨t, e, rfl⟩ : ∃ (t : Fin 32768) (e : Fin 64), i = ix2 t e := ⟨i 0, i 1, eq_ix2 i⟩
  exact v14_apply x0 x1 t e

end Cert.Router.Reference

end
-- ==== Proof.lean ====
/-
  The router's gating kernel against its jnp reference, over the extended reals.

  Both programs take the hidden states x [32768, 4096] and the router weight w [64, 4096] and return the logits
  x · wᵀ [32768, 64] and their softmax over the 64 experts. The kernel works expert-major: at each of 32 grid points it
  multiplies the weight with a block of 1024 token rows, takes the softmax down the 64 rows of each column, and writes
  one column block of each [64, 32768] array; the host transposes both arrays back. The reference multiplies the hidden
  states with the transposed weight, divides by the temperature 1.0 and applies the softmax along the expert axis.

  On the extended reals the two agree entry by entry, with no use of the inputs' finiteness: the products commute, a
  quotient by one is the dividend, the maximum with −∞ is the identity, both maxima are the fold of max from −∞ over the
  same 64 logits and both denominators the sum of the same 64 exponentials, and a token's 64 logits lie in one column of
  one block. `Cert.Router` states that common function (`logits`, `probs`); `Cert.Router.KernelValue.run` reads the
  kernel's run to it, and `Cert.Router.Reference.logits_eq`, `probs_eq` the reference's terms.

  The three frames: the two kernels' are the generated frame certificates; the reference has no kernel, and its frame is
  its run with the results dropped. No operation was rewritten when the kernel was idealized, so `preserves` is trivial.
-/
import proofs.«114381_g44117904065238_cont_8to1_c_823_17_alg».proof.Defs
import proofs.«114381_g44117904065238_cont_8to1_c_823_17_alg».proof.Proof.Gen.Kernel
import proofs.«114381_g44117904065238_cont_8to1_c_823_17_alg».proof.Proof.Gen.Kernel.Skeleton
import proofs.«114381_g44117904065238_cont_8to1_c_823_17_alg».proof.Proof.Gen.Kernel.Launch
import proofs.«114381_g44117904065238_cont_8to1_c_823_17_alg».proof.Proof.Gen.Kernel.Points
import proofs.«114381_g44117904065238_cont_8to1_c_823_17_alg».proof.Proof.Gen.Kernel.Frame
import proofs.«114381_g44117904065238_cont_8to1_c_823_17_alg».proof.Proof.Gen.KernelIdeal
import proofs.«114381_g44117904065238_cont_8to1_c_823_17_alg».proof.Proof.Gen.KernelIdeal.Skeleton
import proofs.«114381_g44117904065238_cont_8to1_c_823_17_alg».proof.Proof.Gen.KernelIdeal.Launch
import proofs.«114381_g44117904065238_cont_8to1_c_823_17_alg».proof.Proof.Gen.KernelIdeal.Points
import proofs.«114381_g44117904065238_cont_8to1_c_823_17_alg».proof.Proof.Gen.KernelIdeal.Frame
import proofs.«114381_g44117904065238_cont_8to1_c_823_17_alg».proof.Proof.Gen.ReferenceIdeal
import proofs.«114381_g44117904065238_cont_8to1_c_823_17_alg».proof.Proof.Gen.Pre_finite_inputs
import proofs.«114381_g44117904065238_cont_8to1_c_823_17_alg».proof.Proof.Gen.ReferenceIdeal.Run
import proofs.«114381_g44117904065238_cont_8to1_c_823_17_alg».proof.Proof.Gen.ReferenceIdeal.Read
import proofs.«114381_g44117904065238_cont_8to1_c_823_17_alg».proof.Proof.RouterSpec
import proofs.«114381_g44117904065238_cont_8to1_c_823_17_alg».proof.Proof.RouterKernelValue
import proofs.«114381_g44117904065238_cont_8to1_c_823_17_alg».proof.Proof.RouterReference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments: its frame is the run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments, the idealized kernel ends with its two results at `logits` and `probs` of
    the arguments, and the reference's two result terms are the same two functions of the same arguments. -/
theorem algebraic : Cert.algebraic_KernelIdeal_ReferenceIdeal := by
  intro m ρ m' ρ' _ hagree
  refine ⟨_, _, Cert.Router.KernelValue.run m ρ, ?_⟩
  refine (θ_run Cert.ReferenceIdeal.defs _ _).mono (fun _ h c => ?_) (Cert.ReferenceIdeal.Value.run (F := Ideal) m' ρ')
  obtain ⟨h3, h14, ha0, ha1⟩ := h c
  refine ⟨h3.trans ?_, h14.trans ?_, ha0, ha1⟩
  · rw [(hagree c).1, (hagree c).2]
    exact (Cert.ReferenceIdeal.Read.val_main_v3_eq _ _).trans (Cert.Router.Reference.logits_eq _ _)
  · rw [(hagree c).1, (hagree c).2]
    exact (Cert.ReferenceIdeal.Read.val_main_v14_eq _ _).trans (Cert.Router.Reference.probs_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
